-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x10 : Shape := ⟨2, ![100000, 10]⟩
abbrev S2x6400000 : Shape := ⟨2, ![2, 6400000]⟩
abbrev S10x16 : Shape := ⟨2, ![10, 16]⟩
abbrev S16 : Shape := ⟨1, ![16]⟩
abbrev S_ : Shape := ⟨0, ![]⟩

class Facts : Prop where
  bcast_S_S100000x10 : S_.BroadcastsInDim S100000x10 (![] : Fin 0 → Fin S100000x10.rank)
  reducesTo_S100000x10_S_d0_1 : S100000x10.ReducesTo [0, 1] S_
  h_S_ : 0 < S_.numel
  bcast_S_S10x16 : S_.BroadcastsInDim S10x16 (![] : Fin 0 → Fin S10x16.rank)
  reducesTo_S10x16_S_d0_1 : S10x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_v13 : IVec S_ 1) (main_v16 : IVec S10x16 1) : IVec S_ 1 :=
  let main_c_5 : IVec S_ 1 := constantI S_ 1 1#1
  let main_v17 : IVec S_ 1 := (fun x v => Host.reduce IntOp.andi x v reducesTo_S10x16_S_d0_1 h_S_) main_v16 main_c_5
  let main_v18 : IVec S_ 1 := andi main_v13 main_v17
  main_v18

def fn {F : FTy → Type} [FloatOps F] (main_arg0 : FVec F S100000x10 .f32) (main_arg1 : IVec S2x6400000 32) (main_arg2 : FVec F S10x16 .f32) (main_arg3 : FVec F S16 .f32) (main_arg4 : FVec F S10x16 .f32) : IVec S_ 1 :=
  let main_v0 : FVec F S100000x10 .f32 := Host.absf main_arg0
  let main_cst : FVec F S_ .f32 := constant S_ .f32 0x7F800000#32
  let main_v1 : FVec F S100000x10 .f32 := broadcastInDim S100000x10 ![] bcast_S_S100000x10 main_cst
  let main_v2 : IVec S100000x10 1 := cmpf .olt main_v0 main_v1
  let main_c : IVec S_ 1 := constantI S_ 1 1#1
  let main_v3 : IVec S_ 1 := (fun x v => Host.reduce IntOp.andi x v reducesTo_S100000x10_S_d0_1 h_S_) main_v2 main_c
  let main_v4 : FVec F S10x16 .f32 := Host.absf main_arg2
  let main_cst_0 : FVec F S_ .f32 := constant S_ .f32 0x7F800000#32
  let main_v5 : FVec F S10x16 .f32 := broadcastInDim S10x16 ![] bcast_S_S10x16 main_cst_0
  let main_v6 : IVec S10x16 1 := cmpf .olt main_v4 main_v5
  let main_c_1 : IVec S_ 1 := constantI S_ 1 1#1
  let main_v7 : IVec S_ 1 := (fun x v => Host.reduce IntOp.andi x v reducesTo_S10x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S10x16 .f32 := Host.absf main_arg4
  let main_cst_4 : FVec F S_ .f32 := constant S_ .f32 0x7F800000#32
  let main_v15 : FVec F S10x16 .f32 := broadcastInDim S10x16 ![] bcast_S_S10x16 main_cst_4
  let main_v16 : IVec S10x16 1 := cmpf .olt main_v14 main_v15
  fn_part1 (F := F) main_v13 main_v16
-- ==== Kernel.lean ====
abbrev S100000x10 : Shape := ⟨2, ![100000, 10]⟩
abbrev S2x6400000 : Shape := ⟨2, ![2, 6400000]⟩
abbrev S10x16 : Shape := ⟨2, ![10, 16]⟩
abbrev S16 : Shape := ⟨1, ![16]⟩
abbrev S1x6400000 : Shape := ⟨2, ![1, 6400000]⟩
abbrev S6400000 : Shape := ⟨1, ![6400000]⟩
abbrev S_ : Shape := ⟨0, ![]⟩
abbrev S6400000x1 : Shape := ⟨2, ![6400000, 1]⟩
abbrev S6400000x10 : Shape := ⟨2, ![6400000, 10]⟩
abbrev S100000 : Shape := ⟨1, ![100000]⟩
abbrev S10x100000 : Shape := ⟨2, ![10, 100000]⟩
abbrev S10x100096 : Shape := ⟨2, ![10, 100096]⟩
abbrev S1x100000 : Shape := ⟨2, ![1, 100000]⟩
abbrev S1x100096 : Shape := ⟨2, ![1, 100096]⟩
abbrev S16x10 : Shape := ⟨2, ![16, 10]⟩
abbrev S16x1 : Shape := ⟨2, ![16, 1]⟩
abbrev S16x100096 : Shape := ⟨2, ![16, 100096]⟩
abbrev S10x5888 : Shape := ⟨2, ![10, 5888]⟩
abbrev S1x5888 : Shape := ⟨2, ![1, 5888]⟩
abbrev S16x5888 : Shape := ⟨2, ![16, 5888]⟩
abbrev S16x100000 : Shape := ⟨2, ![16, 100000]⟩
abbrev S100000x16 : Shape := ⟨2, ![100000, 16]⟩

abbrev nBuf : Space → Nat
  | .hbm => 46
  | .vmem => 11
  | .smem => 0
  | _ => 0

abbrev bufTy : (tb : Table) → Fin (tcTables nBuf tb) → BufTy
  | .hbm, ⟨0, _⟩ => ⟨S100000x10, .f32⟩
  | .hbm, ⟨1, _⟩ => ⟨S2x6400000, .i32⟩
  | .hbm, ⟨2, _⟩ => ⟨S10x16, .f32⟩
  | .hbm, ⟨3, _⟩ => ⟨S16, .f32⟩
  | .hbm, ⟨4, _⟩ => ⟨S10x16, .f32⟩
  | .hbm, ⟨5, _⟩ => ⟨S1x6400000, .i32⟩
  | .hbm, ⟨6, _⟩ => ⟨S6400000, .i32⟩
  | .hbm, ⟨7, _⟩ => ⟨S1x6400000, .i32⟩
  | .hbm, ⟨8, _⟩ => ⟨S6400000, .i32⟩
  | .hbm, ⟨9, _⟩ => ⟨S_, .i32⟩
  | .hbm, ⟨10, _⟩ => ⟨S6400000, .i32⟩
  | .hbm, ⟨11, _⟩ => ⟨S6400000, .i1⟩
  | .hbm, ⟨12, _⟩ => ⟨S_, .i32⟩
  | .hbm, ⟨13, _⟩ => ⟨S6400000, .i32⟩
  | .hbm, ⟨14, _⟩ => ⟨S6400000, .i32⟩
  | .hbm, ⟨15, _⟩ => ⟨S6400000, .i32⟩
  | .hbm, ⟨16, _⟩ => ⟨S6400000x1, .i32⟩
  | .hbm, ⟨17, _⟩ => ⟨S6400000x10, .f32⟩
  | .hbm, ⟨18, _⟩ => ⟨S_, .f32⟩
  | .hbm, ⟨19, _⟩ => ⟨S100000x10, .f32⟩
  | .hbm, ⟨20, _⟩ => ⟨S6400000x1, .i32⟩
  | .hbm, ⟨21, _⟩ => ⟨S100000x10, .f32⟩
  | .hbm, ⟨22, _⟩ => ⟨S_, .f32⟩
  | .hbm, ⟨23, _⟩ => ⟨S6400000, .f32⟩
  | .hbm, ⟨24, _⟩ => ⟨S_, .f32⟩
  | .hbm, ⟨25, _⟩ => ⟨S100000, .f32⟩
  | .hbm, ⟨26, _⟩ => ⟨S6400000x1, .i32⟩
  | .hbm, ⟨27, _⟩ => ⟨S100000, .f32⟩
  | .hbm, ⟨28, _⟩ => ⟨S10x100000, .f32⟩
  | .hbm, ⟨29, _⟩ => ⟨S_, .i32⟩
  | .hbm, ⟨30, _⟩ => ⟨S_, .f32⟩
  | .hbm, ⟨31, _⟩ => ⟨S10x100096, .f32⟩
  | .hbm, ⟨32, _⟩ => ⟨S10x100000, .f32⟩
  | .hbm, ⟨33, _⟩ => ⟨S_, .i32⟩
  | .hbm, ⟨34, _⟩ => ⟨S_, .f32⟩
  | .hbm, ⟨35, _⟩ => ⟨S10x100096, .f32⟩
  | .hbm, ⟨36, _⟩ => ⟨S1x100000, .f32⟩
  | .hbm, ⟨37, _⟩ => ⟨S_, .i32⟩
  | .hbm, ⟨38, _⟩ => ⟨S_, .f32⟩
  | .hbm, ⟨39, _⟩ => ⟨S1x100096, .f32⟩
  | .hbm, ⟨40, _⟩ => ⟨S16x10, .f32⟩
  | .hbm, ⟨41, _⟩ => ⟨S16x10, .f32⟩
  | .hbm, ⟨42, _⟩ => ⟨S16x1, .f32⟩
  | .hbm, ⟨43, _⟩ => ⟨S16x100096, .f32⟩
  | .hbm, ⟨44, _⟩ => ⟨S16x100000, .f32⟩
  | .hbm, ⟨45, _⟩ => ⟨S100000x16, .f32⟩
  | .local _ .vmem, ⟨0, _⟩ => ⟨S10x5888, .f32⟩
  | .local _ .vmem, ⟨1, _⟩ => ⟨S10x5888, .f32⟩
  | .local _ .vmem, ⟨2, _⟩ => ⟨S1x5888, .f32⟩
  | .local _ .vmem, ⟨3, _⟩ => ⟨S1x5888, .f32⟩
  | .local _ .vmem, ⟨4, _⟩ => ⟨S10x5888, .f32⟩
  | .local _ .vmem, ⟨5, _⟩ => ⟨S10x5888, .f32⟩
  | .local _ .vmem, ⟨6, _⟩ => ⟨S16x10, .f32⟩
  | .local _ .vmem, ⟨7, _⟩ => ⟨S16x1, .f32⟩
  | .local _ .vmem, ⟨8, _⟩ => ⟨S16x10, .f32⟩
  | .local _ .vmem, ⟨9, _⟩ => ⟨S16x5888, .f32⟩
  | .local _ .vmem, ⟨10, _⟩ => ⟨S16x5888, .f32⟩
  | _, _ => ⟨S100000x10, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_3 : Ref sig .tc := ⟨.hbm, 29, rfl⟩
abbrev main_call0_v0 : Ref sig .tc := ⟨.hbm, 30, rfl⟩
abbrev main_v19 : Ref sig .tc := ⟨.hbm, 31, rfl⟩
abbrev main_v20 : Ref sig .tc := ⟨.hbm, 32, rfl⟩
abbrev main_c_4 : Ref sig .tc := ⟨.hbm, 33, rfl⟩
abbrev main_call1_v0 : Ref sig .tc := ⟨.hbm, 34, rfl⟩
abbrev main_v21 : Ref sig .tc := ⟨.hbm, 35, rfl⟩
abbrev main_v22 : Ref sig .tc := ⟨.hbm, 36, rfl⟩
abbrev main_c_5 : Ref sig .tc := ⟨.hbm, 37, rfl⟩
abbrev main_call2_v0 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S10x5888 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x5888 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S10x5888 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S16x10 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x10 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S16x5888 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  slices_S2x6400000_S1x6400000_0_0 : S2x6400000.Slices ![0, 0] S1x6400000
  shapeCasts_S1x6400000_S6400000 : S1x6400000.ShapeCasts S6400000
  slices_S2x6400000_S1x6400000_1_0 : S2x6400000.Slices ![1, 0] S1x6400000
  bcast_S_S6400000 : S_.BroadcastsInDim S6400000 (![] : Fin 0 → Fin S6400000.rank)
  bcast_S6400000_S6400000x1_0 : S6400000.BroadcastsInDim S6400000x1 (![0] : Fin 1 → Fin S6400000x1.rank)
  bcast_S_S100000x10 : S_.BroadcastsInDim S100000x10 (![] : Fin 0 → Fin S100000x10.rank)
  bcast_S_S100000 : S_.BroadcastsInDim S100000 (![] : Fin 0 → Fin S100000.rank)
  transposes_S100000x10_S10x100000_1_0 : S100000x10.Transposes [1, 0] S10x100000
  pads_S10x100000_S10x100096_000_0960 : S10x100000.Pads (![0, 0] : Fin 2 → Nat) ![0, 96] ![0, 0] S10x100096
  h_S_ : 0 < S_.numel
  bcast_S100000_S1x100000_1 : S100000.BroadcastsInDim S1x100000 (![1] : Fin 1 → Fin S1x100000.rank)
  pads_S1x100000_S1x100096_000_0960 : S1x100000.Pads (![0, 0] : Fin 2 → Nat) ![0, 96] ![0, 0] S1x100096
  transposes_S10x16_S16x10_1_0 : S10x16.Transposes [1, 0] S16x10
  bcast_S16_S16x1_0 : S16.BroadcastsInDim S16x1 (![0] : Fin 1 → Fin S16x1.rank)
  inb_S1x5888_S1x5888_0_0 : ∀ a, (![0, 0] : Fin 2 → Nat) a + S1x5888.size a ≤ S1x5888.size a
  h_S1x5888 : 0 < S1x5888.numel
  shapeCasts_S1x5888_S1x5888 : S1x5888.ShapeCasts S1x5888
  inb_S10x5888_S10x5888_0_0 : ∀ a, (![0, 0] : Fin 2 → Nat) a + S10x5888.size a ≤ S10x5888.size a
  h_S10x5888 : 0 < S10x5888.numel
  shapeCasts_S10x5888_S10x5888 : S10x5888.ShapeCasts S10x5888
  broadcasts_S1x5888_S10x5888 : S1x5888.Broadcasts S10x5888
  bitsLt_bf16_f32 : FTy.bits .bf16 < FTy.bits .f32
  inb_S16x10_S16x10_0_0 : ∀ a, (![0, 0] : Fin 2 → Nat) a + S16x10.size a ≤ S16x10.size a
  h_S16x10 : 0 < S16x10.numel
  shapeCasts_S16x10_S16x10 : S16x10.ShapeCasts S16x10
  inb_S16x1_S16x1_0_0 : ∀ a, (![0, 0] : Fin 2 → Nat) a + S16x1.size a ≤ S16x1.size a
  h_S16x1 : 0 < S16x1.numel
  shapeCasts_S16x1_S16x1 : S16x1.ShapeCasts S16x1
  broadcasts_S16x1_S16x5888 : S16x1.Broadcasts S16x5888
  inb_S16x5888_S16x5888_0_0 : ∀ a, (![0, 0] : Fin 2 → Nat) a + S16x5888.size a ≤ S16x5888.size a
  h_S16x5888 : 0 < S16x5888.numel
  slices_S16x100096_S16x100000_0_0 : S16x100096.Slices ![0, 0] S16x100000
  transposes_S16x100000_S100000x16_1_0 : S16x100000.Transposes [1, 0] S100000x16
  gather_S100000x10_S6400000x1_S6400000x10_1_0_n_n_0_1_110_wf : GatherDims.WF S100000x10 S6400000x1 S6400000x10 [1] [0] [] [0] [] 1 ![1, 10]
  scatter_S100000x10_S6400000x1_S6400000x10_1_0_0_1_wf : ScatterDims.WF S100000x10 S6400000x1 S6400000x10 [1] [0] [0] 1
  scatter_S100000_S6400000x1_S6400000_n_0_0_1_wf : ScatterDims.WF S100000 S6400000x1 S6400000 [] [0] [0] 1
  dot_S16x10_S10x5888_S16x5888_1_0_0_1_n_n_wf : DotDims.WF S16x10 S10x5888 S16x5888 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10x5888.size a ≤ S10x100096.size a
  hwx0_0 : ∀ i : grid0.Coords, EltTy.bits .f32 = 32 ∨ (Rect.block (s := S10x100096) S10x5888.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x5888.size a ≤ S1x100096.size a
  hwx0_1 : ∀ i : grid0.Coords, EltTy.bits .f32 = 32 ∨ (Rect.block (s := S1x100096) S1x5888.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10x5888.size a ≤ S10x100096.size a
  hwx0_2 : ∀ i : grid0.Coords, EltTy.bits .f32 = 32 ∨ (Rect.block (s := S10x100096) S10x5888.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16x10.size a ≤ S16x10.size a
  hwx0_3 : ∀ i : grid0.Coords, EltTy.bits .f32 = 32 ∨ (Rect.block (s := S16x10) S16x10.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S16x1.size a ≤ S16x1.size a
  hwx0_4 : ∀ i : grid0.Coords, EltTy.bits .f32 = 32 ∨ (Rect.block (s := S16x1) S16x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S16x10.size a ≤ S16x10.size a
  hwx0_5 : ∀ i : grid0.Coords, EltTy.bits .f32 = 32 ∨ (Rect.block (s := S16x10) S16x10.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S16x5888.size a ≤ S16x100096.size a
  hwx0_6 : ∀ i : grid0.Coords, EltTy.bits .f32 = 32 ∨ (Rect.block (s := S16x100096) S16x5888.size (cc0_transform_6 i) (hinb0_6 i)).WholeWords (EltTy.packing .f32)

variable [Facts₀]

def gather_S100000x10_S6400000x1_S6400000x10_1_0_n_n_0_1_110 : GatherDims S100000x10 S6400000x1 S6400000x10 where
  offsetDims := [1]
  collapsedSliceDims := [0]
  operandBatchingDims := []
  startIndicesBatchingDims := []
  startIndexMap := [0]
  indexVectorDim := 1
  sliceSizes := ![1, 10]
  wf := gather_S100000x10_S6400000x1_S6400000x10_1_0_n_n_0_1_110_wf
def scatter_S100000x10_S6400000x1_S6400000x10_1_0_0_1 : ScatterDims S100000x10 S6400000x1 S6400000x10 where
  updateWindowDims := [1]
  insertedWindowDims := [0]
  scatterDimsToOperandDims := [0]
  indexVectorDim := 1
  wf := scatter_S100000x10_S6400000x1_S6400000x10_1_0_0_1_wf
def scatter_S100000_S6400000x1_S6400000_n_0_0_1 : ScatterDims S100000 S6400000x1 S6400000 where
  updateWindowDims := []
  insertedWindowDims := [0]
  scatterDimsToOperandDims := [0]
  indexVectorDim := 1
  wf := scatter_S100000_S6400000x1_S6400000_n_0_0_1_wf
def dot_S16x10_S10x5888_S16x5888_1_0_0_1_n_n : DotDims S16x10 S10x5888 S16x5888 where
  lhsContracting := [1]
  rhsContracting := [0]
  lhsNonContracting := [0]
  rhsNonContracting := [1]
  lhsBatch := []
  rhsBatch := []
  wf := dot_S16x10_S10x5888_S16x5888_1_0_0_1_n_n_wf

abbrev win0_0 : Pipeline.Window sig grid0 :=
  Pipeline.Window.ofSpec (Memref.whole main_v19) S10x5888.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v23) S1x5888.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v21) S10x5888.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v24) S16x10.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v26) S16x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v25) S16x10.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v27) S16x5888.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S100000x10 : Shape := ⟨2, ![100000, 10]⟩
abbrev S2x6400000 : Shape := ⟨2, ![2, 6400000]⟩
abbrev S10x16 : Shape := ⟨2, ![10, 16]⟩
abbrev S16 : Shape := ⟨1, ![16]⟩
abbrev S1x6400000 : Shape := ⟨2, ![1, 6400000]⟩
abbrev S6400000 : Shape := ⟨1, ![6400000]⟩
abbrev S_ : Shape := ⟨0, ![]⟩
abbrev S6400000x1 : Shape := ⟨2, ![6400000, 1]⟩
abbrev S6400000x10 : Shape := ⟨2, ![6400000, 10]⟩
abbrev S100000 : Shape := ⟨1, ![100000]⟩
abbrev S100000x1 : Shape := ⟨2, ![100000, 1]⟩
abbrev S100000x16 : Shape := ⟨2, ![100000, 16]⟩
abbrev S1x16 : Shape := ⟨2, ![1, 16]⟩

abbrev nBuf : Space → Nat
  | .hbm => 40
  | .vmem => 0
  | .smem => 0
  | _ => 0

abbrev bufTy : (tb : Table) → Fin (tcTables nBuf tb) → BufTy
  | .hbm, ⟨0, _⟩ => ⟨S100000x10, .f32⟩
  | .hbm, ⟨1, _⟩ => ⟨S2x6400000, .i32⟩
  | .hbm, ⟨2, _⟩ => ⟨S10x16, .f32⟩
  | .hbm, ⟨3, _⟩ => ⟨S16, .f32⟩
  | .hbm, ⟨4, _⟩ => ⟨S10x16, .f32⟩
  | .hbm, ⟨5, _⟩ => ⟨S1x6400000, .i32⟩
  | .hbm, ⟨6, _⟩ => ⟨S6400000, .i32⟩
  | .hbm, ⟨7, _⟩ => ⟨S1x6400000, .i32⟩
  | .hbm, ⟨8, _⟩ => ⟨S6400000, .i32⟩
  | .hbm, ⟨9, _⟩ => ⟨S_, .i32⟩
  | .hbm, ⟨10, _⟩ => ⟨S6400000, .i32⟩
  | .hbm, ⟨11, _⟩ => ⟨S6400000, .i1⟩
  | .hbm, ⟨12, _⟩ => ⟨S_, .i32⟩
  | .hbm, ⟨13, _⟩ => ⟨S6400000, .i32⟩
  | .hbm, ⟨14, _⟩ => ⟨S6400000, .i32⟩
  | .hbm, ⟨15, _⟩ => ⟨S6400000, .i32⟩
  | .hbm, ⟨16, _⟩ => ⟨S6400000x1, .i32⟩
  | .hbm, ⟨17, _⟩ => ⟨S6400000x10, .f32⟩
  | .hbm, ⟨18, _⟩ => ⟨S_, .f32⟩
  | .hbm, ⟨19, _⟩ => ⟨S100000x10, .f32⟩
  | .hbm, ⟨20, _⟩ => ⟨S6400000x1, .i32⟩
  | .hbm, ⟨21, _⟩ => ⟨S100000x10, .f32⟩
  | .hbm, ⟨22, _⟩ => ⟨S_, .f32⟩
  | .hbm, ⟨23, _⟩ => ⟨S6400000, .f32⟩
  | .hbm, ⟨24, _⟩ => ⟨S_, .f32⟩
  | .hbm, ⟨25, _⟩ => ⟨S100000, .f32⟩
  | .hbm, ⟨26, _⟩ => ⟨S6400000x1, .i32⟩
  | .hbm, ⟨27, _⟩ => ⟨S100000, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S100000x1, .f32⟩
  | .hbm, ⟨32, _⟩ => ⟨S100000x10, .f32⟩
  | .hbm, ⟨33, _⟩ => ⟨S100000x10, .f32⟩
  | .hbm, ⟨34, _⟩ => ⟨S100000x16, .f32⟩
  | .hbm, ⟨35, _⟩ => ⟨S1x16, .f32⟩
  | .hbm, ⟨36, _⟩ => ⟨S100000x16, .f32⟩
  | .hbm, ⟨37, _⟩ => ⟨S100000x16, .f32⟩
  | .hbm, ⟨38, _⟩ => ⟨S100000x16, .f32⟩
  | .hbm, ⟨39, _⟩ => ⟨S100000x16, .f32⟩
  | _, _ => ⟨S100000x10, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩

abbrev nD : Nat := 1
abbrev τ : Topo := Topo.v7x

variable {F : FTy → Type} [FloatOps F]

class Facts₀ : Prop where
  slices_S2x6400000_S1x6400000_0_0 : S2x6400000.Slices ![0, 0] S1x6400000
  shapeCasts_S1x6400000_S6400000 : S1x6400000.ShapeCasts S6400000
  slices_S2x6400000_S1x6400000_1_0 : S2x6400000.Slices ![1, 0] S1x6400000
  bcast_S_S6400000 : S_.BroadcastsInDim S6400000 (![] : Fin 0 → Fin S6400000.rank)
  bcast_S6400000_S6400000x1_0 : S6400000.BroadcastsInDim S6400000x1 (![0] : Fin 1 → Fin S6400000x1.rank)
  bcast_S_S100000x10 : S_.BroadcastsInDim S100000x10 (![] : Fin 0 → Fin S100000x10.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x10_0_1 : S100000x1.BroadcastsInDim S100000x10 (![0, 1] : Fin 2 → Fin S100000x10.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  gather_S100000x10_S6400000x1_S6400000x10_1_0_n_n_0_1_110_wf : GatherDims.WF S100000x10 S6400000x1 S6400000x10 [1] [0] [] [0] [] 1 ![1, 10]
  scatter_S100000x10_S6400000x1_S6400000x10_1_0_0_1_wf : ScatterDims.WF S100000x10 S6400000x1 S6400000x10 [1] [0] [0] 1
  scatter_S100000_S6400000x1_S6400000_n_0_0_1_wf : ScatterDims.WF S100000 S6400000x1 S6400000 [] [0] [0] 1
  dot_S100000x10_S10x16_S100000x16_1_0_0_1_n_n_wf : DotDims.WF S100000x10 S10x16 S100000x16 [1] [0] [0] [1] [] []

variable [Facts₀]

def gather_S100000x10_S6400000x1_S6400000x10_1_0_n_n_0_1_110 : GatherDims S100000x10 S6400000x1 S6400000x10 where
  offsetDims := [1]
  collapsedSliceDims := [0]
  operandBatchingDims := []
  startIndicesBatchingDims := []
  startIndexMap := [0]
  indexVectorDim := 1
  sliceSizes := ![1, 10]
  wf := gather_S100000x10_S6400000x1_S6400000x10_1_0_n_n_0_1_110_wf
def scatter_S100000x10_S6400000x1_S6400000x10_1_0_0_1 : ScatterDims S100000x10 S6400000x1 S6400000x10 where
  updateWindowDims := [1]
  insertedWindowDims := [0]
  scatterDimsToOperandDims := [0]
  indexVectorDim := 1
  wf := scatter_S100000x10_S6400000x1_S6400000x10_1_0_0_1_wf
def scatter_S100000_S6400000x1_S6400000_n_0_0_1 : ScatterDims S100000 S6400000x1 S6400000 where
  updateWindowDims := []
  insertedWindowDims := [0]
  scatterDimsToOperandDims := [0]
  indexVectorDim := 1
  wf := scatter_S100000_S6400000x1_S6400000_n_0_0_1_wf
def dot_S100000x10_S10x16_S100000x16_1_0_0_1_n_n : DotDims S100000x10 S10x16 S100000x16 where
  lhsContracting := [1]
  rhsContracting := [0]
  lhsNonContracting := [0]
  rhsNonContracting := [1]
  lhsBatch := []
  rhsBatch := []
  wf := dot_S100000x10_S10x16_S100000x16_1_0_0_1_n_n_wf

class Facts : Prop extends Facts₀ where

variable [Facts]
-- ==== Proof.MeanAggregate.lean ====
/-
  The layer both programs compute, on the extended reals. For a node `n` and an output feature `h`,

      out[n, h] = (Σ_k mean[n, k] · W_l[k, h] + b[h]) + Σ_k x[n, k] · W_r[k, h],
      mean[n, k] = s[n, k] / max (cnt[n], 1),

  where `s[n, ·]` is the sum of the feature rows of the nodes with an edge into `n` and `cnt[n]` the number of
  such edges. How `s` and `cnt` come out of the edge list does not matter below: they are arguments.

  One arrangement keeps nodes on the rows (`outAt`). The other works on the transposed arrays, weights on the
  left of each product and the bias added last; `transposed_eq` says the two agree. Only the commutativity of
  the product and the commutativity and associativity of the sum are used, and those hold on all of the
  extended reals, so no entry has to be finite.
-/
import Idealize.ShloMosaic.PureOps.Ideal
import Idealize.ShloMosaic.Lib.ValueIdx

noncomputable section

open scoped BigOperators

namespace Cert.MeanAggregate

open Idealize.ShloMosaic Idealize.ShloMosaic.ValueIdx

abbrev SNx10 : Shape := ⟨2, ![100000, 10]⟩
abbrev SN : Shape := ⟨1, ![100000]⟩
abbrev S10x16 : Shape := ⟨2, ![10, 16]⟩
abbrev S16 : Shape := ⟨1, ![16]⟩
abbrev SNx16 : Shape := ⟨2, ![100000, 16]⟩

/-- The number one, as the word both programs spell it with: the floor put under a node's in-degree. -/
abbrev unit : EReal := Ideal.ofBits .f32 0x3F800000#32

/-- The mean of the messages into node `n`, feature `k`: the summed feature over the in-degree, the in-degree
    floored at one so that a node with no incoming edge divides by one. -/
def mean (s : FVec Ideal SNx10 .f32) (cnt : FVec Ideal SN .f32) (n : Fin 100000) (k : Fin 10) : EReal :=
  Ideal.div (s (ix2 n k)) (max (cnt (ix1 n)) unit)

/-- The layer at node `n`, output feature `h`. -/
def outAt (s : FVec Ideal SNx10 .f32) (cnt : FVec Ideal SN .f32) (x : FVec Ideal SNx10 .f32)
    (wl : FVec Ideal S10x16 .f32) (b : FVec Ideal S16 .f32) (wr : FVec Ideal S10x16 .f32)
    (n : Fin 100000) (h : Fin 16) : EReal :=
  (∑ k : Fin 10, mean s cnt n k * wl (ix2 k h) + b (ix1 h)) + ∑ k : Fin 10, x (ix2 n k) * wr (ix2 k h)

/-- The layer as an array over nodes × output features. -/
def out (s : FVec Ideal SNx10 .f32) (cnt : FVec Ideal SN .f32) (x : FVec Ideal SNx10 .f32)
    (wl : FVec Ideal S10x16 .f32) (b : FVec Ideal S16 .f32) (wr : FVec Ideal S10x16 .f32) : FVec Ideal SNx16 .f32 :=
  fun i => outAt s cnt x wl b wr ⟨(i 0).val, (i 0).isLt⟩ ⟨(i 1).val, (i 1).isLt⟩

/-- The transposed arrangement — each weight on the left of its product, the two contractions added first and
    the bias last — is the same number: products commute, and `(A + B) + c = (A + c) + B`. -/
theorem transposed_eq (s : FVec Ideal SNx10 .f32) (cnt : FVec Ideal SN .f32) (x : FVec Ideal SNx10 .f32)
    (wl : FVec Ideal S10x16 .f32) (b : FVec Ideal S16 .f32) (wr : FVec Ideal S10x16 .f32)
    (n : Fin 100000) (h : Fin 16) :
    (∑ k : Fin 10, wl (ix2 k h) * mean s cnt n k + ∑ k : Fin 10, wr (ix2 k h) * x (ix2 n k)) + b (ix1 h)
      = outAt s cnt x wl b wr n h := by
  unfold outAt
  have e1 : ∑ k : Fin 10, wl (ix2 k h) * mean s cnt n k = ∑ k : Fin 10, mean s cnt n k * wl (ix2 k h) :=
    Finset.sum_congr rfl fun k _ => mul_comm _ _
  have e2 : ∑ k : Fin 10, wr (ix2 k h) * x (ix2 n k) = ∑ k : Fin 10, x (ix2 n k) * wr (ix2 k h) :=
    Finset.sum_congr rfl fun k _ => mul_comm _ _
  rw [e1, e2, add_right_comm]

end Cert.MeanAggregate

end
-- ==== Proof.ReferenceValue.lean ====
/-
  The reference's result array is the layer `MeanAggregate.out` of its own summed messages and in-degrees.

  The reference's last operations, read one at a time at a node `n` and an output feature `h`: the row of
  in-degrees is floored at one, spread along the ten input features and divides the summed messages (the mean);
  the mean is contracted with `W_l` over the ten input features, the bias `b[h]` is added, and the
  contraction of `x[n, ·]` with `W_r` is added to that. This is `MeanAggregate.outAt` term for term, so the
  proof only identifies the indices the operations read at with indices built from the coordinates `n`, `h`
  and the contraction position `k`. The summed messages and the in-degrees stay the two named stages of the
  reference (`val_main_v13`, `val_main_v17`); nothing here looks inside them.
-/
import proofs.«178518_j39032662786373_1_alg».proof.Proof.Gen.ReferenceIdeal.Read
import proofs.«178518_j39032662786373_1_alg».proof.Proof.MeanAggregate

noncomputable section

open scoped BigOperators

namespace Cert.ReferenceIdeal.RefValue

open Cert.ReferenceIdeal Cert.ReferenceIdeal.Gen Cert.ReferenceIdeal.Read Cert.MeanAggregate
open Idealize.ShloMosaic Idealize.ShloMosaic.ValueIdx

/-- The left operand of either contraction is read at (node, contraction position). -/
theorem lidx23 (i : S100000x16.Idx) (k : Fin 10) : lidx_main_v23 i k = ix2 ⟨(i 0).val, (i 0).isLt⟩ k :=
  funext fun a => Fin.ext (by match a with | ⟨0, _⟩ => rfl | ⟨1, _⟩ => rfl)
/-- The right operand of either contraction is read at (contraction position, output feature). -/
theorem ridx23 (i : S100000x16.Idx) (k : Fin 10) : ridx_main_v23 i k = ix2 k ⟨(i 1).val, (i 1).isLt⟩ :=
  funext fun a => Fin.ext (by match a with | ⟨0, _⟩ => rfl | ⟨1, _⟩ => rfl)
theorem lidx27 (i : S100000x16.Idx) (k : Fin 10) : lidx_main_v27 i k = ix2 ⟨(i 0).val, (i 0).isLt⟩ k :=
  funext fun a => Fin.ext (by match a with | ⟨0, _⟩ => rfl | ⟨1, _⟩ => rfl)
theorem ridx27 (i : S100000x16.Idx) (k : Fin 10) : ridx_main_v27 i k = ix2 k ⟨(i 1).val, (i 1).isLt⟩ :=
  funext fun a => Fin.ext (by match a with | ⟨0, _⟩ => rfl | ⟨1, _⟩ => rfl)
/-- The floored in-degree spread along the features is read at the node alone. -/
theorem cntIdx (n : Fin 100000) (k : Fin 10) :
    idx_main_v20 (idx_main_v21 (ix2 n k)) = ix1 n :=
  funext fun a => Fin.ext (by match a with | ⟨0, _⟩ => rfl)
/-- The bias spread along the nodes is read at the output feature alone. -/
theorem biasIdx (i : S100000x16.Idx) : idx_main_v24 (idx_main_v25 i) = ix1 ⟨(i 1).val, (i 1).isLt⟩ :=
  funext fun a => Fin.ext (by match a with | ⟨0, _⟩ => rfl)

/-- The floor under the in-degrees is the word of one at every node. -/
theorem floor_apply (j : S100000.Idx) : val_main_v18 (F := Ideal) j = unit := by
  rw [val_main_v18_apply, val_main_cst_3_apply]; rfl

/-- The mean the reference divides out, at a node and an input feature. -/
theorem mean_apply (x0 : FVec Ideal S100000x10 .f32) (x1 : IVec S2x6400000 32) (n : Fin 100000) (k : Fin 10) :
    val_main_v22 (F := Ideal) x0 x1 (ix2 n k) = mean (val_main_v13 (F := Ideal) x0 x1) (val_main_v17 (F := Ideal) x1) n k := by
  rw [val_main_v22_apply, val_main_v21_apply, val_main_v20_apply, val_main_v19_apply, cntIdx, floor_apply]
  rfl

/-- The same at the index the first contraction reads its left operand at. -/
theorem mean_at (x0 : FVec Ideal S100000x10 .f32) (x1 : IVec S2x6400000 32) (i : S100000x16.Idx) (k : Fin 10) :
    val_main_v22 (F := Ideal) x0 x1 (lidx_main_v23 i k)
      = mean (val_main_v13 (F := Ideal) x0 x1) (val_main_v17 (F := Ideal) x1) ⟨(i 0).val, (i 0).isLt⟩ k := by
  rw [lidx23]
  exact mean_apply x0 x1 ⟨(i 0).val, (i 0).isLt⟩ k

/-- THE REFERENCE'S RESULT is the layer of its summed messages and in-degrees. -/
theorem result_eq (x0 : FVec Ideal S100000x10 .f32) (x1 : IVec S2x6400000 32) (x2 : FVec Ideal S10x16 .f32)
    (x3 : FVec Ideal S16 .f32) (x4 : FVec Ideal S10x16 .f32) :
    val_main_v28 (F := Ideal) x0 x1 x2 x3 x4
      = out (val_main_v13 (F := Ideal) x0 x1) (val_main_v17 (F := Ideal) x1) x0 x2 x3 x4 := by
  funext i
  rw [val_main_v28_apply, val_main_v26_apply, val_main_v23_apply, val_main_v27_apply, val_main_v25_apply,
    val_main_v24_apply, biasIdx]
  simp only [mean_at, ridx23, lidx27, ridx27, Ideal.addf_def]
  rfl

end Cert.ReferenceIdeal.RefValue

end
-- ==== Proof.BodyValue.lean ====
/-
  What one grid step of the kernel leaves in its output block, entry by entry, on the extended reals.

  A step holds a block of 5888 nodes, with nodes along the columns: the summed messages `s` and the features `x`
  as 10 × 5888 blocks, the in-degrees `c` as a 1 × 5888 row, and the whole transposed weights `wl`, `wr`
  (16 × 10) and bias column `bl` (16 × 1). It floors the in-degree row at one, spreads it down the ten rows
  and divides `s` by it (the mean), multiplies `wl` by the mean and `wr` by `x` (contractions over the ten
  input features, into a zero accumulator, so each entry is the plain sum of products), adds the two products
  and then the bias column spread along the nodes. The changes of float format in between are the identity on
  the extended reals. So entry (h, j) of the block is

      (Σ_k wl[h, k] · (s[k, j] / max (c[0, j], 1)) + Σ_k wr[h, k] · x[k, j]) + bl[h, 0].
-/
import proofs.«178518_j39032662786373_1_alg».proof.Proof.Gen.KernelIdeal.Frame
import proofs.«178518_j39032662786373_1_alg».proof.Proof.MeanAggregate
import Idealize.ShloMosaic.Lib.Pipeline.Value
import Idealize.ShloMosaic.Lib.ValueIdx
import Idealize.ShloMosaic.PureOps.Ideal.Laws

noncomputable section

open scoped BigOperators

namespace Cert.KernelIdeal.BodyValue

open Cert.KernelIdeal Cert.KernelIdeal.Gen Cert.MeanAggregate
open Idealize.ShloMosaic Idealize.ShloMosaic.ValueIdx

/-- The zero offsets of a whole-block access, spelt as the constant function. -/
theorem hz : (![0, 0] : Fin 2 → Nat) = fun _ => 0 := funext fun a => by fin_cases a <;> rfl

/-! ## The contraction's operand indices -/

theorem lhs_0 (i : S16x5888.Idx) (q : dot_S16x10_S10x5888_S16x5888_1_0_0_1_n_n.contr.Idx) :
    (dot_S16x10_S10x5888_S16x5888_1_0_0_1_n_n.lhsIdx i q 0).val = (i 0).val := by
  unfold DotDims.lhsIdx
  rw [dif_neg (show ¬(0 : Fin S16x10.rank) ∈ dot_S16x10_S10x5888_S16x5888_1_0_0_1_n_n.lhsBatch by decide), dif_pos (show (0 : Fin S16x10.rank) ∈ dot_S16x10_S10x5888_S16x5888_1_0_0_1_n_n.lhsNonContracting by decide)]
  rfl
theorem lhs_1 (i : S16x5888.Idx) (q : dot_S16x10_S10x5888_S16x5888_1_0_0_1_n_n.contr.Idx) :
    (dot_S16x10_S10x5888_S16x5888_1_0_0_1_n_n.lhsIdx i q 1).val = (q ⟨0, by decide⟩).val :=
  dot_S16x10_S10x5888_S16x5888_1_0_0_1_n_n.lhsIdx_val_of_single rfl i q
theorem rhs_0 (i : S16x5888.Idx) (q : dot_S16x10_S10x5888_S16x5888_1_0_0_1_n_n.contr.Idx) :
    (dot_S16x10_S10x5888_S16x5888_1_0_0_1_n_n.rhsIdx i q 0).val = (q ⟨0, by decide⟩).val :=
  dot_S16x10_S10x5888_S16x5888_1_0_0_1_n_n.rhsIdx_val_of_single rfl i q
theorem rhs_1 (i : S16x5888.Idx) (q : dot_S16x10_S10x5888_S16x5888_1_0_0_1_n_n.contr.Idx) :
    (dot_S16x10_S10x5888_S16x5888_1_0_0_1_n_n.rhsIdx i q 1).val = (i 1).val := by
  unfold DotDims.rhsIdx
  rw [dif_neg (show ¬(1 : Fin S10x5888.rank) ∈ dot_S16x10_S10x5888_S16x5888_1_0_0_1_n_n.rhsBatch by decide), dif_pos (show (1 : Fin S10x5888.rank) ∈ dot_S16x10_S10x5888_S16x5888_1_0_0_1_n_n.rhsNonContracting by decide)]
  rfl

/-- A 16 × 10 by 10 × 5888 product into the zero accumulator, at entry (h, j): the sum over the ten
    contracted positions of left (h, k) times right (k, j). -/
theorem matmul_at {φ₁ φ₂ : FTy} (l : FVec Ideal S16x10 φ₁) (r : FVec Ideal S10x5888 φ₂) (h : Fin 16) (j : Fin 5888) :
    matmul dot_S16x10_S10x5888_S16x5888_1_0_0_1_n_n none l r (constant S16x5888 .f32 0x00000000#32) (ix2 h j)
      = ∑ k : Fin 10, l (ix2 h k) * r (ix2 k j) := by
  simp only [matmul]
  rw [Ideal.matmul_constant_zero_apply, ← Equiv.sum_comp (contrEquiv1 dot_S16x10_S10x5888_S16x5888_1_0_0_1_n_n 10 rfl rfl).symm]
  refine Finset.sum_congr rfl fun k _ => ?_
  have hk := contrEquiv1_symm_val dot_S16x10_S10x5888_S16x5888_1_0_0_1_n_n 10 rfl rfl k
  have el : dot_S16x10_S10x5888_S16x5888_1_0_0_1_n_n.lhsIdx (ix2 h j) ((contrEquiv1 dot_S16x10_S10x5888_S16x5888_1_0_0_1_n_n 10 rfl rfl).symm k) = ix2 h k := funext fun a => Fin.ext (by
    match a with
    | ⟨0, _⟩ => exact lhs_0 _ _
    | ⟨1, _⟩ => exact (lhs_1 _ _).trans hk)
  have er : dot_S16x10_S10x5888_S16x5888_1_0_0_1_n_n.rhsIdx (ix2 h j) ((contrEquiv1 dot_S16x10_S10x5888_S16x5888_1_0_0_1_n_n 10 rfl rfl).symm k) = ix2 k j := funext fun a => Fin.ext (by
    match a with
    | ⟨0, _⟩ => exact (rhs_0 _ _).trans hk
    | ⟨1, _⟩ => exact rhs_1 _ _)
  rw [el, er]

/-! ## The two spreads -/

/-- The one-row in-degree block spread down the ten rows reads, at (k, j), the row at column j. -/
theorem spread_row {α : Type} (v : S1x5888.Idx → α) (k : Fin 10) (j : Fin 5888) :
    broadcastTo S10x5888 v broadcasts_S1x5888_S10x5888 (ix2 k j) = v (ix2 0 j) :=
  broadcastTo_apply v broadcasts_S1x5888_S10x5888 (ix2 k j) (ix2 0 j) (fun a => match a with
    | ⟨0, _⟩ => by show (0 : Nat) = if (1 : Nat) = 1 then 0 else _; rw [if_pos rfl]
    | ⟨1, _⟩ => by show j.val = if (5888 : Nat) = 1 then 0 else j.val; rw [if_neg (by decide)])

/-- The one-column bias block spread along the nodes reads, at (h, j), the column at row h. -/
theorem spread_col {α : Type} (v : S16x1.Idx → α) (h : Fin 16) (j : Fin 5888) :
    broadcastTo S16x5888 v broadcasts_S16x1_S16x5888 (ix2 h j) = v (ix2 h 0) :=
  broadcastTo_apply v broadcasts_S16x1_S16x5888 (ix2 h j) (ix2 h 0) (fun a => match a with
    | ⟨0, _⟩ => by show h.val = if (16 : Nat) = 1 then 0 else h.val; rw [if_neg (by decide)]
    | ⟨1, _⟩ => by show (0 : Nat) = if (1 : Nat) = 1 then 0 else _; rw [if_pos rfl])

/-! ## The step's arithmetic at an entry -/

/-- The body's arithmetic of its six loaded blocks, at entry (h, j). -/
theorem pay_apply (c : Vec Ideal S1x5888 .f32) (s x : Vec Ideal S10x5888 .f32) (wl wr : Vec Ideal S16x10 .f32)
    (bl : Vec Ideal S16x1 .f32) (h : Fin 16) (j : Fin 5888) :
    k0_pay1 (F := Ideal) c s x wl wr bl (ix2 h j)
      = (∑ k : Fin 10, wl (ix2 h k) * Ideal.div (s (ix2 k j)) (max (c (ix2 0 j)) unit)
          + ∑ k : Fin 10, wr (ix2 h k) * x (ix2 k j)) + bl (ix2 h 0) := by
  unfold k0_pay1
  simp only [shapeCast_self]
  rw [addf_apply, addf_apply, matmul_at, matmul_at, spread_col]
  simp only [truncf_apply, divf_apply, spread_row, maximumf_apply, broadcast_apply]
  rfl

/-- What the step leaves in the output block: the single whole-block store's payload, of the six blocks
    loaded whole. -/
theorem out_eq_pay {F : FTy → Type} [FloatOps F] (x0 : Vec F S10x5888 .f32) (x1 : Vec F S1x5888 .f32) (x2 : Vec F S10x5888 .f32)
    (x3 : Vec F S16x10 .f32) (x4 : Vec F S16x1 .f32) (x5 : Vec F S16x10 .f32) :
    out0_6 x0 x1 x2 x3 x4 x5 = k0_pay1 x1 x0 x2 x3 x5 x4 := by
  unfold out0_6
  rw [View.canon_unit_zero hz]
  simp only [View.ld_unit_zero (S := S1x5888) hz, View.ld_unit_zero (S := S10x5888) hz,
    View.ld_unit_zero (S := S16x10) hz, View.ld_unit_zero (S := S16x1) hz]

/-- THE OUTPUT BLOCK AT AN ENTRY, from the six input blocks in window order (summed messages, in-degrees,
    features, left weights, bias, right weights). -/
theorem out_apply (x0 : Vec Ideal S10x5888 .f32) (x1 : Vec Ideal S1x5888 .f32) (x2 : Vec Ideal S10x5888 .f32)
    (x3 : Vec Ideal S16x10 .f32) (x4 : Vec Ideal S16x1 .f32) (x5 : Vec Ideal S16x10 .f32) (h : Fin 16) (j : Fin 5888) :
    out0_6 (F := Ideal) x0 x1 x2 x3 x4 x5 (ix2 h j)
      = (∑ k : Fin 10, x3 (ix2 h k) * Ideal.div (x0 (ix2 k j)) (max (x1 (ix2 0 j)) unit)
          + ∑ k : Fin 10, x5 (ix2 h k) * x2 (ix2 k j)) + x4 (ix2 h 0) := by
  rw [out_eq_pay]
  exact pay_apply x1 x0 x2 x3 x5 x4 h j

end Cert.KernelIdeal.BodyValue

end
-- ==== Proof.BlocksToArray.lean ====
/-
  From the blocks to the array: what the kernel's padded output array holds once all seventeen grid steps have
  written back.

  Step `t` works on the columns `5888·t … 5888·t + 5887` of the transposed, padded arrays: its blocks of the
  summed messages, the in-degrees and the features are those columns of their arrays, its weight and bias blocks
  are the whole small arrays, and its output block goes to the same columns of the output. Entry (h, j) of a
  step's output block depends only on column j of its input blocks, so the output array, at (h, n), is one
  function `padded` of column n of the input arrays — the same formula for every step. The seventeen blocks
  tile the 100096 columns (column n belongs to step n / 5888), so the whole array is `padded` of the arrays
  the region found.
-/
import proofs.«178518_j39032662786373_1_alg».proof.Proof.BodyValue

set_option maxRecDepth 16384

noncomputable section

open scoped BigOperators

namespace Cert.KernelIdeal.ArrayValue

open Cert.KernelIdeal Cert.KernelIdeal.Gen Cert.KernelIdeal.BodyValue Cert.MeanAggregate
open Idealize.ShloMosaic Idealize.ShloMosaic.TcCoe Idealize.ShloMosaic.ValueIdx Idealize.SL.Sem
open Idealize.ShloMosaic.Pipeline (Dat Cfg Window)

/-- The padded, transposed output as one function of the padded, transposed inputs: entry (h, n) from column
    n of the summed messages `a0`, the in-degrees `a1` and the features `a2`, row h of the weights `a3`, `a5`
    and of the bias column `a4`. -/
def padded (a0 : FVec Ideal S10x100096 .f32) (a1 : FVec Ideal S1x100096 .f32) (a2 : FVec Ideal S10x100096 .f32)
    (a3 : FVec Ideal S16x10 .f32) (a4 : FVec Ideal S16x1 .f32) (a5 : FVec Ideal S16x10 .f32) : FVec Ideal S16x100096 .f32 :=
  fun e =>
    (∑ k : Fin 10, a3 (ix2 ⟨(e 0).val, (e 0).isLt⟩ k)
        * Ideal.div (a0 (ix2 k ⟨(e 1).val, (e 1).isLt⟩)) (max (a1 (ix2 0 ⟨(e 1).val, (e 1).isLt⟩)) unit)
      + ∑ k : Fin 10, a5 (ix2 ⟨(e 0).val, (e 0).isLt⟩ k) * a2 (ix2 k ⟨(e 1).val, (e 1).isLt⟩))
    + a4 (ix2 ⟨(e 0).val, (e 0).isLt⟩ 0)

/-- An entry `y` of a step's output block is `padded` of the arrays at the array index `e`, as soon as the
    input blocks read, at row `y 0` and column `y 1`, what the arrays hold at row `e 0` and column `e 1`. -/
theorem entry_eq (A0 : FVec Ideal S10x100096 .f32) (A1 : FVec Ideal S1x100096 .f32) (A2 : FVec Ideal S10x100096 .f32)
    (A3 : FVec Ideal S16x10 .f32) (A4 : FVec Ideal S16x1 .f32) (A5 : FVec Ideal S16x10 .f32)
    (b0 : Vec Ideal S10x5888 .f32) (b1 : Vec Ideal S1x5888 .f32) (b2 : Vec Ideal S10x5888 .f32)
    (b3 : Vec Ideal S16x10 .f32) (b4 : Vec Ideal S16x1 .f32) (b5 : Vec Ideal S16x10 .f32)
    (h : Fin 16) (j : Fin 5888) (e : S16x100096.Idx)
    (r0 : ∀ k : Fin 10, b0 (ix2 k j) = A0 (ix2 k ⟨(e 1).val, (e 1).isLt⟩))
    (r1 : b1 (ix2 0 j) = A1 (ix2 0 ⟨(e 1).val, (e 1).isLt⟩))
    (r2 : ∀ k : Fin 10, b2 (ix2 k j) = A2 (ix2 k ⟨(e 1).val, (e 1).isLt⟩))
    (r3 : ∀ k : Fin 10, b3 (ix2 h k) = A3 (ix2 ⟨(e 0).val, (e 0).isLt⟩ k))
    (r4 : b4 (ix2 h 0) = A4 (ix2 ⟨(e 0).val, (e 0).isLt⟩ 0))
    (r5 : ∀ k : Fin 10, b5 (ix2 h k) = A5 (ix2 ⟨(e 0).val, (e 0).isLt⟩ k)) :
    out0_6 (F := Ideal) b0 b1 b2 b3 b4 b5 (ix2 h j) = padded A0 A1 A2 A3 A4 A5 e := by
  rw [out_apply]
  unfold padded
  simp only [r0, r1, r2, r3, r4, r5]

variable (m : (ℓ : Loc nD τ sig) → Buf (Elt Ideal) ℓ)

/-- The printed index maps, decided over the seventeen steps: the column blocks move with the step, the
    small arrays stay. -/
theorem idx_facts : ∀ t : Fin cfg0.N,
    win0_0.index t (0 : Fin 2) = 0 ∧ win0_0.index t (1 : Fin 2) = t.val
    ∧ win0_1.index t (0 : Fin 2) = 0 ∧ win0_1.index t (1 : Fin 2) = t.val
    ∧ win0_2.index t (0 : Fin 2) = 0 ∧ win0_2.index t (1 : Fin 2) = t.val
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = t.val :=
  (by decide +kernel : ∀ t : Fin grid0.N, _)

/-- `entry_eq` at an entry given as an index of the block rather than by its two coordinates. -/
theorem entry_eq_idx (A0 : FVec Ideal S10x100096 .f32) (A1 : FVec Ideal S1x100096 .f32) (A2 : FVec Ideal S10x100096 .f32)
    (A3 : FVec Ideal S16x10 .f32) (A4 : FVec Ideal S16x1 .f32) (A5 : FVec Ideal S16x10 .f32)
    (b0 : Vec Ideal S10x5888 .f32) (b1 : Vec Ideal S1x5888 .f32) (b2 : Vec Ideal S10x5888 .f32)
    (b3 : Vec Ideal S16x10 .f32) (b4 : Vec Ideal S16x1 .f32) (b5 : Vec Ideal S16x10 .f32)
    (y : S16x5888.Idx) (e : S16x100096.Idx)
    (r0 : ∀ k : Fin 10, b0 (ix2 k ⟨(y 1).val, (y 1).isLt⟩) = A0 (ix2 k ⟨(e 1).val, (e 1).isLt⟩))
    (r1 : b1 (ix2 0 ⟨(y 1).val, (y 1).isLt⟩) = A1 (ix2 0 ⟨(e 1).val, (e 1).isLt⟩))
    (r2 : ∀ k : Fin 10, b2 (ix2 k ⟨(y 1).val, (y 1).isLt⟩) = A2 (ix2 k ⟨(e 1).val, (e 1).isLt⟩))
    (r3 : ∀ k : Fin 10, b3 (ix2 ⟨(y 0).val, (y 0).isLt⟩ k) = A3 (ix2 ⟨(e 0).val, (e 0).isLt⟩ k))
    (r4 : b4 (ix2 ⟨(y 0).val, (y 0).isLt⟩ 0) = A4 (ix2 ⟨(e 0).val, (e 0).isLt⟩ 0))
    (r5 : ∀ k : Fin 10, b5 (ix2 ⟨(y 0).val, (y 0).isLt⟩ k) = A5 (ix2 ⟨(e 0).val, (e 0).isLt⟩ k)) :
    out0_6 (F := Ideal) b0 b1 b2 b3 b4 b5 y = padded A0 A1 A2 A3 A4 A5 e := by
  obtain ⟨h, j, rfl⟩ : ∃ (h : Fin 16) (j : Fin 5888), y = ix2 h j := ⟨y 0, y 1, eq_ix2 y⟩
  exact entry_eq A0 A1 A2 A3 A4 A5 b0 b1 b2 b3 b4 b5 h j e r0 r1 r2 r3 r4 r5

/-! ## What each input block reads of its array -/

/-- Step `t`'s block of the summed messages is columns `5888·t …` of their array. -/
theorem read0 (c : Dev nD) (t : Fin cfg0.N) (k : Fin 10) (j : Fin 5888) (i : S10x100096.Idx)
    (h0 : (i 0).val = k.val) (h1 : (i 1).val = t.val * 5888 + j.val) :
    iblk m c 0 t (ix2 k j) = V m c main_v19 i := by
  obtain ⟨e00, e01, -⟩ := idx_facts t
  show V m c main_v19 (((cfg0.win 0).blk t).view.emb (ix2 k j)) = V m c main_v19 i
  refine congrArg (V m c main_v19) (funext fun a => Fin.ext ?_)
  match a with
  | ⟨0, _⟩ => show win0_0.index t (0 : Fin 2) * 10 + 1 * k.val = (i 0).val; omega
  | ⟨1, _⟩ => show win0_0.index t (1 : Fin 2) * 5888 + 1 * j.val = (i 1).val; omega

/-- Step `t`'s block of the in-degree row is columns `5888·t …` of the row. -/
theorem read1 (c : Dev nD) (t : Fin cfg0.N) (j : Fin 5888) (i : S1x100096.Idx)
    (h0 : (i 0).val = 0) (h1 : (i 1).val = t.val * 5888 + j.val) :
    iblk m c 1 t (ix2 0 j) = V m c main_v23 i := by
  obtain ⟨-, -, e10, e11, -⟩ := idx_facts t
  show V m c main_v23 (((cfg0.win 1).blk t).view.emb (ix2 0 j)) = V m c main_v23 i
  refine congrArg (V m c main_v23) (funext fun a => Fin.ext ?_)
  match a with
  | ⟨0, _⟩ => show win0_1.index t (0 : Fin 2) * 1 + 1 * 0 = (i 0).val; omega
  | ⟨1, _⟩ => show win0_1.index t (1 : Fin 2) * 5888 + 1 * j.val = (i 1).val; omega

/-- Step `t`'s block of the features is columns `5888·t …` of their array. -/
theorem read2 (c : Dev nD) (t : Fin cfg0.N) (k : Fin 10) (j : Fin 5888) (i : S10x100096.Idx)
    (h0 : (i 0).val = k.val) (h1 : (i 1).val = t.val * 5888 + j.val) :
    iblk m c 2 t (ix2 k j) = V m c main_v21 i := by
  obtain ⟨-, -, -, -, e20, e21, -⟩ := idx_facts t
  show V m c main_v21 (((cfg0.win 2).blk t).view.emb (ix2 k j)) = V m c main_v21 i
  refine congrArg (V m c main_v21) (funext fun a => Fin.ext ?_)
  match a with
  | ⟨0, _⟩ => show win0_2.index t (0 : Fin 2) * 10 + 1 * k.val = (i 0).val; omega
  | ⟨1, _⟩ => show win0_2.index t (1 : Fin 2) * 5888 + 1 * j.val = (i 1).val; omega

/-- Every step's block of the left weights is the whole array. -/
theorem read3 (c : Dev nD) (t : Fin cfg0.N) (h : Fin 16) (k : Fin 10) (i : S16x10.Idx)
    (h0 : (i 0).val = h.val) (h1 : (i 1).val = k.val) :
    iblk m c 3 t (ix2 h k) = V m c main_v24 i := by
  obtain ⟨-, -, -, -, -, -, e30, e31, -⟩ := idx_facts t
  show V m c main_v24 (((cfg0.win 3).blk t).view.emb (ix2 h k)) = V m c main_v24 i
  refine congrArg (V m c main_v24) (funext fun a => Fin.ext ?_)
  match a with
  | ⟨0, _⟩ => show win0_3.index t (0 : Fin 2) * 16 + 1 * h.val = (i 0).val; omega
  | ⟨1, _⟩ => show win0_3.index t (1 : Fin 2) * 10 + 1 * k.val = (i 1).val; omega

/-- Every step's block of the bias column is the whole column. -/
theorem read4 (c : Dev nD) (t : Fin cfg0.N) (h : Fin 16) (i : S16x1.Idx)
    (h0 : (i 0).val = h.val) (h1 : (i 1).val = 0) :
    iblk m c 4 t (ix2 h 0) = V m c main_v26 i := by
  obtain ⟨-, -, -, -, -, -, -, -, e40, e41, -⟩ := idx_facts t
  show V m c main_v26 (((cfg0.win 4).blk t).view.emb (ix2 h 0)) = V m c main_v26 i
  refine congrArg (V m c main_v26) (funext fun a => Fin.ext ?_)
  match a with
  | ⟨0, _⟩ => show win0_4.index t (0 : Fin 2) * 16 + 1 * h.val = (i 0).val; omega
  | ⟨1, _⟩ => show win0_4.index t (1 : Fin 2) * 1 + 1 * 0 = (i 1).val; omega

/-- Every step's block of the right weights is the whole array. -/
theorem read5 (c : Dev nD) (t : Fin cfg0.N) (h : Fin 16) (k : Fin 10) (i : S16x10.Idx)
    (h0 : (i 0).val = h.val) (h1 : (i 1).val = k.val) :
    iblk m c 5 t (ix2 h k) = V m c main_v25 i := by
  obtain ⟨-, -, -, -, -, -, -, -, -, -, e50, e51, -⟩ := idx_facts t
  show V m c main_v25 (((cfg0.win 5).blk t).view.emb (ix2 h k)) = V m c main_v25 i
  refine congrArg (V m c main_v25) (funext fun a => Fin.ext ?_)
  match a with
  | ⟨0, _⟩ => show win0_5.index t (0 : Fin 2) * 16 + 1 * h.val = (i 0).val; omega
  | ⟨1, _⟩ => show win0_5.index t (1 : Fin 2) * 10 + 1 * k.val = (i 1).val; omega

/-! ## The write-back, the cover, the array -/

/-- WHAT STEP `t` WRITES BACK is block `t` of `padded` of the arrays as the region finds them. -/
theorem flushed_eq (c : Dev nD) (t : Fin cfg0.N) :
    (dats m 0 c).flushed 6 t = ((cfg0.win 6).blk t).view.read (Elt Ideal)
      (padded (V m c main_v19) (V m c main_v23) (V m c main_v21) (V m c main_v24) (V m c main_v26) (V m c main_v25)) := by
  show (cfg0.win 6).cut (grid0.coords t) ((dats m 0 c).after 6 t) = _
  rw [after0_6]
  obtain ⟨-, -, -, -, -, -, -, -, -, -, -, -, e60, e61⟩ := idx_facts t
  funext y
  show out0_6 (iblk m c 0 t) (iblk m c 1 t) (iblk m c 2 t) (iblk m c 3 t) (iblk m c 4 t) (iblk m c 5 t) y
    = padded (V m c main_v19) (V m c main_v23) (V m c main_v21) (V m c main_v24) (V m c main_v26) (V m c main_v25) (((cfg0.win 6).blk t).view.emb y)
  have c0 : ((((cfg0.win 6).blk t).view.emb y) 0).val = (y 0).val := by
    show win0_6.index t (0 : Fin 2) * 16 + 1 * (y 0).val = (y 0).val; omega
  have c1 : ((((cfg0.win 6).blk t).view.emb y) 1).val = t.val * 5888 + (y 1).val := by
    show win0_6.index t (1 : Fin 2) * 5888 + 1 * (y 1).val = t.val * 5888 + (y 1).val; omega
  exact entry_eq_idx (V m c main_v19) (V m c main_v23) (V m c main_v21) (V m c main_v24) (V m c main_v26) (V m c main_v25)
    (iblk m c 0 t) (iblk m c 1 t) (iblk m c 2 t) (iblk m c 3 t) (iblk m c 4 t) (iblk m c 5 t) y (((cfg0.win 6).blk t).view.emb y)
    (fun k => read0 m c t k ⟨(y 1).val, (y 1).isLt⟩ _ rfl c1)
    (read1 m c t ⟨(y 1).val, (y 1).isLt⟩ _ rfl c1)
    (fun k => read2 m c t k ⟨(y 1).val, (y 1).isLt⟩ _ rfl c1)
    (fun k => read3 m c t ⟨(y 0).val, (y 0).isLt⟩ k _ c0 rfl)
    (read4 m c t ⟨(y 0).val, (y 0).isLt⟩ _ c0 rfl)
    (fun k => read5 m c t ⟨(y 0).val, (y 0).isLt⟩ k _ c0 rfl)

/-- An index of the output array is in step `t`'s block iff each coordinate is in the block's range. -/
theorem mem_blk (t : Fin cfg0.N) (i : S16x100096.Idx) :
    i ∈ ((cfg0.win 6).blk t).view.set ↔ ∀ a : Fin 2, win0_6.index t a * S16x5888.size a ≤ (i a).val ∧ (i a).val < win0_6.index t a * S16x5888.size a + S16x5888.size a := by
  show i ∈ ((View.whole main_v27).slice (win0_6.rect t)).set ↔ _
  rw [View.set_slice_whole, Rect.mem_set_unit]
  exact Iff.rfl

/-- Column `n` of the output array is in the block of step `n / 5888`: the seventeen blocks tile the array. -/
theorem cover (i : S16x100096.Idx) :
    ∃ t : Fin cfg0.N, (cfg0.win 6).flush t = true ∧ i ∈ ((cfg0.win 6).blk t).view.set := by
  have hi0 : (i 0).val < 16 := (i 0).isLt
  have hi1 : (i 1).val < 100096 := (i 1).isLt
  let t : Fin cfg0.N := Fin.cast N_0.symm ⟨(i 1).val / 5888, by omega⟩
  have ht : t.val = (i 1).val / 5888 := rfl
  obtain ⟨-, -, -, -, -, -, -, -, -, -, -, -, e60, e61⟩ := idx_facts t
  refine ⟨t, flush0_6 t, ?_⟩
  rw [mem_blk]
  intro a
  match a with
  | ⟨0, _⟩ => show win0_6.index t (0 : Fin 2) * 16 ≤ (i 0).val ∧ (i 0).val < win0_6.index t (0 : Fin 2) * 16 + 16; omega
  | ⟨1, _⟩ => show win0_6.index t (1 : Fin 2) * 5888 ≤ (i 1).val ∧ (i 1).val < win0_6.index t (1 : Fin 2) * 5888 + 5888; omega

/-- THE OUTPUT ARRAY after the seventeen steps is `padded` of the arrays the region found. -/
theorem final (c : Dev nD) :
    (dats m 0 c).arrAt 6 cfg0.N
      = padded (V m c main_v19) (V m c main_v23) (V m c main_v21) (V m c main_v24) (V m c main_v26) (V m c main_v25) :=
  (dats m 0 c).arrAt_eq_of_cover 6 _ (fun t _ => flushed_eq m c t) cover

end Cert.KernelIdeal.ArrayValue

end
-- ==== Proof.HostPrefix.lean ====
/-
  What the kernel's region finds in its six input arrays, as functions of the program's arguments.

  Before the region the program gathers the source rows of the features along the edges, adds them up per
  destination node (`summed`: the summed messages) and counts the edges per destination node (`counts`: the
  in-degrees). These two stay opaque here: nothing below looks inside the gather or the two scatter-adds.
  Then it lays everything out with nodes along the columns: the summed messages and the features transposed
  and padded with 96 zero columns to 100096, the in-degrees as one row padded the same way, the two weight
  matrices transposed, the bias as a column.

  Read at an index whose column `n` is below 100000, the padding and the transposes disappear: the padded
  arrays at (k, n) are the unpadded ones at (n, k), the in-degree row at (0, n) is the in-degree of `n`, a
  transposed weight at (h, k) is the weight at (k, h), and the bias column at (h, 0) is `b[h]`.
-/
import proofs.«178518_j39032662786373_1_alg».proof.Proof.Gen.KernelIdeal.Frame
import Idealize.ShloMosaic.Lib.Pipeline.Value
import Idealize.ShloMosaic.Lib.ValueIdx
import Idealize.ShloMosaic.Lib.KernelVsHost
import Idealize.ShloMosaic.Lib.StableHlo.Run

set_option maxRecDepth 16384

noncomputable section

namespace Cert.KernelIdeal.HostValue

open Cert.KernelIdeal Cert.KernelIdeal.Gen
open Idealize.ShloMosaic Idealize.ShloMosaic.TcCoe Idealize.ShloMosaic.ValueIdx Idealize.SL.Sem Idealize.ShloMosaic.StableHlo

variable {F : FTy → Type} [FloatOps F]

/-- The summed messages: for each node, the sum of the feature rows of the sources of its incoming edges
    (the features gathered along the edges' sources, scatter-added at the edges' destinations into zeros). -/
def summed (x0 : FVec F S100000x10 .f32) (x1 : IVec S2x6400000 32) : FVec F S100000x10 .f32 :=
  Host.scatterAdd scatter_S100000x10_S6400000x1_S6400000x10_1_0_0_1 (broadcastInDim S100000x10 ![] bcast_S_S100000x10 (constant S_ .f32 0x00000000#32)) (broadcastInDim S6400000x1 ![0] bcast_S6400000_S6400000x1_0 (shapeCast _ (extractStridedSlice S1x6400000 ![1, 0] x1 slices_S2x6400000_S1x6400000_1_0) shapeCasts_S1x6400000_S6400000)) (Host.gather gather_S100000x10_S6400000x1_S6400000x10_1_0_n_n_0_1_110 x0 (broadcastInDim S6400000x1 ![0] bcast_S6400000_S6400000x1_0 (select (cmpi .slt (shapeCast _ (extractStridedSlice S1x6400000 ![0, 0] x1 slices_S2x6400000_S1x6400000_0_0) shapeCasts_S1x6400000_S6400000) (broadcastInDim S6400000 ![] bcast_S_S6400000 (constantI S_ 32 0#32))) (addi (shapeCast _ (extractStridedSlice S1x6400000 ![0, 0] x1 slices_S2x6400000_S1x6400000_0_0) shapeCasts_S1x6400000_S6400000) (broadcastInDim S6400000 ![] bcast_S_S6400000 (constantI S_ 32 100000#32))) (shapeCast _ (extractStridedSlice S1x6400000 ![0, 0] x1 slices_S2x6400000_S1x6400000_0_0) shapeCasts_S1x6400000_S6400000))))

/-- The in-degrees: for each node, the number of its incoming edges (a one per edge, scatter-added at the
    edges' destinations into zeros). -/
def counts (x1 : IVec S2x6400000 32) : FVec F S100000 .f32 :=
  Host.scatterAdd scatter_S100000_S6400000x1_S6400000_n_0_0_1 (broadcastInDim S100000 ![] bcast_S_S100000 (constant S_ .f32 0x00000000#32)) (broadcastInDim S6400000x1 ![0] bcast_S6400000_S6400000x1_0 (shapeCast _ (extractStridedSlice S1x6400000 ![1, 0] x1 slices_S2x6400000_S1x6400000_1_0) shapeCasts_S1x6400000_S6400000)) (broadcastInDim S6400000 ![] bcast_S_S6400000 (constant S_ .f32 0x3F800000#32))

/-! ## The layout operations read at an index -/

/-- A nodes × 10 array transposed and padded with 96 columns, read at (k, n) with n < 100000, is the array at
    (n, k). -/
theorem padT_apply {α : Type} (x : S100000x10.Idx → α) (v : S_.Idx → α) (k : Fin 10) (n : Fin 100000) (e : S10x100096.Idx)
    (h0 : (e 0).val = k.val) (h1 : (e 1).val = n.val) :
    pad S10x100096 ![0, 0] ![0, 96] ![0, 0] (transpose S10x100000 [1, 0] x transposes_S100000x10_S10x100000_1_0) v
      pads_S10x100000_S10x100096_000_0960 h_S_ e = x (ix2 n k) := by
  rw [pad_apply_of_inside ![0, 0] ![0, 96] ![0, 0] _ v pads_S10x100000_S10x100096_000_0960 h_S_ e (ix2 k n) (fun a => match a with
    | ⟨0, _⟩ => by show (e 0).val = 0 + k.val * (0 + 1); omega
    | ⟨1, _⟩ => by show (e 1).val = 0 + n.val * (0 + 1); omega)]
  exact transpose_apply [1, 0] x transposes_S100000x10_S10x100000_1_0 (ix2 k n) (ix2 n k) (fun b => match b with
    | ⟨0, _⟩ => rfl
    | ⟨1, _⟩ => rfl)

/-- A per-node array as one row, padded with 96 columns, read at (0, n) with n < 100000, is the array at n. -/
theorem padRow_apply {α : Type} (x : S100000.Idx → α) (v : S_.Idx → α) (n : Fin 100000) (e : S1x100096.Idx)
    (h0 : (e 0).val = 0) (h1 : (e 1).val = n.val) :
    pad S1x100096 ![0, 0] ![0, 96] ![0, 0] (broadcastInDim S1x100000 ![1] bcast_S100000_S1x100000_1 x) v
      pads_S1x100000_S1x100096_000_0960 h_S_ e = x (ix1 n) := by
  rw [pad_apply_of_inside ![0, 0] ![0, 96] ![0, 0] _ v pads_S1x100000_S1x100096_000_0960 h_S_ e (ix2 0 n) (fun a => match a with
    | ⟨0, _⟩ => by show (e 0).val = 0 + 0 * (0 + 1); omega
    | ⟨1, _⟩ => by show (e 1).val = 0 + n.val * (0 + 1); omega)]
  exact broadcastInDim_apply _ bcast_S100000_S1x100000_1 x (ix2 0 n) (ix1 n) (fun a => match a with
    | ⟨0, _⟩ => by show n.val = if (100000 : Nat) = 1 then 0 else n.val; rw [if_neg (by decide)])

/-- A 10 × 16 weight matrix transposed, read at (h, k), is the matrix at (k, h). -/
theorem weightT_apply {α : Type} (w : S10x16.Idx → α) (h : Fin 16) (k : Fin 10) (e : S16x10.Idx)
    (h0 : (e 0).val = h.val) (h1 : (e 1).val = k.val) :
    transpose S16x10 [1, 0] w transposes_S10x16_S16x10_1_0 e = w (ix2 k h) :=
  transpose_apply [1, 0] w transposes_S10x16_S16x10_1_0 e (ix2 k h) (fun b => match b with
    | ⟨0, _⟩ => by show h.val = (e 0).val; omega
    | ⟨1, _⟩ => by show k.val = (e 1).val; omega)

/-- The bias as a column, read at (h, 0), is the bias at h. -/
theorem biasCol_apply {α : Type} (b : S16.Idx → α) (h : Fin 16) (e : S16x1.Idx) (h0 : (e 0).val = h.val) :
    broadcastInDim S16x1 ![0] bcast_S16_S16x1_0 b e = b (ix1 h) :=
  broadcastInDim_apply _ bcast_S16_S16x1_0 b e (ix1 h) (fun a => match a with
    | ⟨0, _⟩ => by show h.val = if (16 : Nat) = 1 then 0 else (e 0).val; rw [if_neg (by decide)]; omega)

/-! ## The six arrays as the region finds them -/

variable (m : (ℓ : Loc nD τ sig) → Buf (Elt F) ℓ)

/-- The padding value the program converts from the integer zero. -/
abbrev padv : FVec F S_ .f32 := sitofp .f32 (constantI S_ 32 0#32)

set_option maxHeartbeats 2000000 in
theorem V_v19 (c : Dev nD) :
    (V m c main_v19 : S10x100096.Idx → F .f32)
      = pad S10x100096 ![0, 0] ![0, 96] ![0, 0]
          (transpose S10x100000 [1, 0] (summed (m ((c : Thread nD τ).loc main_arg0)) (m ((c : Thread nD τ).loc main_arg1))) transposes_S100000x10_S10x100000_1_0)
          (padv (F := F)) pads_S10x100000_S10x100096_000_0960 h_S_ := by
  dsimp only [V, V0]
  simp only [hostOps0, hostOps0_1, hostOps0_2, hostOps0_3, hostOps0_4, hostOps0_5, hostOps0_6, List.flatten_cons, List.flatten_nil,
    List.append_nil, List.cons_append, List.nil_append]
  after_results_simp <;> rfl

set_option maxHeartbeats 2000000 in
theorem V_v23 (c : Dev nD) :
    (V m c main_v23 : S1x100096.Idx → F .f32)
      = pad S1x100096 ![0, 0] ![0, 96] ![0, 0]
          (broadcastInDim S1x100000 ![1] bcast_S100000_S1x100000_1 (counts (F := F) (m ((c : Thread nD τ).loc main_arg1))))
          (padv (F := F)) pads_S1x100000_S1x100096_000_0960 h_S_ := by
  dsimp only [V, V0]
  simp only [hostOps0, hostOps0_1, hostOps0_2, hostOps0_3, hostOps0_4, hostOps0_5, hostOps0_6, List.flatten_cons, List.flatten_nil,
    List.append_nil, List.cons_append, List.nil_append]
  after_results_simp <;> rfl

set_option maxHeartbeats 2000000 in
theorem V_v21 (c : Dev nD) :
    (V m c main_v21 : S10x100096.Idx → F .f32)
      = pad S10x100096 ![0, 0] ![0, 96] ![0, 0]
          (transpose S10x100000 [1, 0] (m ((c : Thread nD τ).loc main_arg0)) transposes_S100000x10_S10x100000_1_0)
          (padv (F := F)) pads_S10x100000_S10x100096_000_0960 h_S_ := by
  dsimp only [V, V0]
  simp only [hostOps0, hostOps0_1, hostOps0_2, hostOps0_3, hostOps0_4, hostOps0_5, hostOps0_6, List.flatten_cons, List.flatten_nil,
    List.append_nil, List.cons_append, List.nil_append]
  after_results_simp <;> rfl

set_option maxHeartbeats 2000000 in
theorem V_v24 (c : Dev nD) :
    (V m c main_v24 : S16x10.Idx → F .f32) = transpose S16x10 [1, 0] (m ((c : Thread nD τ).loc main_arg2)) transposes_S10x16_S16x10_1_0 := by
  dsimp only [V, V0]
  simp only [hostOps0, hostOps0_1, hostOps0_2, hostOps0_3, hostOps0_4, hostOps0_5, hostOps0_6, List.flatten_cons, List.flatten_nil,
    List.append_nil, List.cons_append, List.nil_append]
  after_results_simp <;> rfl

set_option maxHeartbeats 2000000 in
theorem V_v25 (c : Dev nD) :
    (V m c main_v25 : S16x10.Idx → F .f32) = transpose S16x10 [1, 0] (m ((c : Thread nD τ).loc main_arg4)) transposes_S10x16_S16x10_1_0 := by
  dsimp only [V, V0]
  simp only [hostOps0, hostOps0_1, hostOps0_2, hostOps0_3, hostOps0_4, hostOps0_5, hostOps0_6, List.flatten_cons, List.flatten_nil,
    List.append_nil, List.cons_append, List.nil_append]
  after_results_simp <;> rfl

set_option maxHeartbeats 2000000 in
theorem V_v26 (c : Dev nD) :
    (V m c main_v26 : S16x1.Idx → F .f32) = broadcastInDim S16x1 ![0] bcast_S16_S16x1_0 (m ((c : Thread nD τ).loc main_arg3)) := by
  dsimp only [V, V0]
  simp only [hostOps0, hostOps0_1, hostOps0_2, hostOps0_3, hostOps0_4, hostOps0_5, hostOps0_6, List.flatten_cons, List.flatten_nil,
    List.append_nil, List.cons_append, List.nil_append]
  after_results_simp <;> rfl

/-! ## The same, read at an index inside the unpadded columns -/

/-- The padded transposed summed messages at (k, n), n < 100000: the summed messages at (n, k). -/
theorem summed_at (c : Dev nD) (k : Fin 10) (n : Fin 100000) (e : S10x100096.Idx) (h0 : (e 0).val = k.val) (h1 : (e 1).val = n.val) :
    (V m c main_v19 : S10x100096.Idx → F .f32) e = summed (m ((c : Thread nD τ).loc main_arg0)) (m ((c : Thread nD τ).loc main_arg1)) (ix2 n k) :=
  (congrFun (V_v19 m c) e).trans (padT_apply _ _ k n e h0 h1)

/-- The padded in-degree row at (0, n), n < 100000: the in-degree of n. -/
theorem counts_at (c : Dev nD) (n : Fin 100000) (e : S1x100096.Idx) (h0 : (e 0).val = 0) (h1 : (e 1).val = n.val) :
    (V m c main_v23 : S1x100096.Idx → F .f32) e = counts (F := F) (m ((c : Thread nD τ).loc main_arg1)) (ix1 n) :=
  (congrFun (V_v23 m c) e).trans (padRow_apply _ _ n e h0 h1)

/-- The padded transposed features at (k, n), n < 100000: the features at (n, k). -/
theorem feat_at (c : Dev nD) (k : Fin 10) (n : Fin 100000) (e : S10x100096.Idx) (h0 : (e 0).val = k.val) (h1 : (e 1).val = n.val) :
    (V m c main_v21 : S10x100096.Idx → F .f32) e = ((m ((c : Thread nD τ).loc main_arg0)) : S100000x10.Idx → F .f32) (ix2 n k) :=
  (congrFun (V_v21 m c) e).trans (padT_apply _ _ k n e h0 h1)

/-- The transposed left weights at (h, k): the left weights at (k, h). -/
theorem wl_at (c : Dev nD) (h : Fin 16) (k : Fin 10) (e : S16x10.Idx) (h0 : (e 0).val = h.val) (h1 : (e 1).val = k.val) :
    (V m c main_v24 : S16x10.Idx → F .f32) e = ((m ((c : Thread nD τ).loc main_arg2)) : S10x16.Idx → F .f32) (ix2 k h) :=
  (congrFun (V_v24 m c) e).trans (weightT_apply _ h k e h0 h1)

/-- The transposed right weights at (h, k): the right weights at (k, h). -/
theorem wr_at (c : Dev nD) (h : Fin 16) (k : Fin 10) (e : S16x10.Idx) (h0 : (e 0).val = h.val) (h1 : (e 1).val = k.val) :
    (V m c main_v25 : S16x10.Idx → F .f32) e = ((m ((c : Thread nD τ).loc main_arg4)) : S10x16.Idx → F .f32) (ix2 k h) :=
  (congrFun (V_v25 m c) e).trans (weightT_apply _ h k e h0 h1)

/-- The bias column at (h, 0): the bias at h. -/
theorem bias_at (c : Dev nD) (h : Fin 16) (e : S16x1.Idx) (h0 : (e 0).val = h.val) :
    (V m c main_v26 : S16x1.Idx → F .f32) e = ((m ((c : Thread nD τ).loc main_arg3)) : S16.Idx → F .f32) (ix1 h) :=
  (congrFun (V_v26 m c) e).trans (biasCol_apply _ h e h0)

end Cert.KernelIdeal.HostValue

end
-- ==== Proof.HostTail.lean ====
/-
  After the region: the program cuts the 96 padding columns off the kernel's 16 × 100096 output and transposes
  what is left, so that nodes are on the rows again. Entry (n, h) of the result is therefore entry (h, n) of
  the kernel's output array, for every node n < 100000.
-/
import proofs.«178518_j39032662786373_1_alg».proof.Proof.Gen.KernelIdeal.Frame
import Idealize.ShloMosaic.Lib.Pipeline.Value
import Idealize.ShloMosaic.Lib.ValueIdx
import Idealize.ShloMosaic.Lib.StableHlo.Run

set_option maxRecDepth 16384

noncomputable section

namespace Cert.KernelIdeal.TailValue

open Cert.KernelIdeal Cert.KernelIdeal.Gen
open Idealize.ShloMosaic Idealize.ShloMosaic.TcCoe Idealize.ShloMosaic.ValueIdx Idealize.SL.Sem Idealize.ShloMosaic.StableHlo

variable {F : FTy → Type} [FloatOps F]

/-- The first 100000 columns of a 16 × 100096 array, transposed: entry (n, h) is the array at (h, n). -/
theorem sliceT_apply {α : Type} (x : S16x100096.Idx → α) (n : Fin 100000) (h : Fin 16) (i : S100000x16.Idx) (e : S16x100096.Idx)
    (hi0 : (i 0).val = n.val) (hi1 : (i 1).val = h.val) (h0 : (e 0).val = h.val) (h1 : (e 1).val = n.val) :
    transpose S100000x16 [1, 0] (extractStridedSlice S16x100000 ![0, 0] x slices_S16x100096_S16x100000_0_0)
      transposes_S16x100000_S100000x16_1_0 i = x e := by
  rw [transpose_apply [1, 0] _ transposes_S16x100000_S100000x16_1_0 i (ix2 h n) (fun b => match b with
    | ⟨0, _⟩ => by show n.val = (i 0).val; omega
    | ⟨1, _⟩ => by show h.val = (i 1).val; omega)]
  exact extractStridedSlice_apply ![0, 0] x slices_S16x100096_S16x100000_0_0 (ix2 h n) e (fun a => match a with
    | ⟨0, _⟩ => by show (e 0).val = 0 + h.val; omega
    | ⟨1, _⟩ => by show (e 1).val = 0 + n.val; omega)

variable (m : (ℓ : Loc nD τ sig) → Buf (Elt F) ℓ)

/-- THE RESULT BUFFER after the lines that follow the region: the kernel's output array, as the run leaves it,
    cut to the first 100000 columns and transposed. -/
theorem result_of_array (c : Dev nD) :
    (Pipeline.afterTail₀ cfgs (dats m) 0 (V0 m) [hostOps1] c main_v29 : S100000x16.Idx → F .f32)
      = transpose S100000x16 [1, 0]
          (extractStridedSlice S16x100000 ![0, 0] ((dats m 0 c).arrAt 6 cfg0.N) slices_S16x100096_S16x100000_0_0)
          transposes_S16x100000_S100000x16_1_0 := by
  unfold Pipeline.afterTail₀
  show StableHlo.after hostOps1 _ (Proc.devRef .tc main_v29) = _
  after_results
  rw [Pipeline.withArrays_arr spec0 launch0.win.arr_inj c _ _ 6]

end Cert.KernelIdeal.TailValue

end
-- ==== Proof.KernelResult.lean ====
/-
  The kernel program's result array is the layer `MeanAggregate.out` of its own summed messages and in-degrees.

  The pieces: after the run the kernel's padded output array is `padded` of the six arrays the region found
  (the seventeen blocks tile it); those arrays, at a column n < 100000, are the arguments and the summed
  messages / in-degrees read at node n; the lines after the region hand entry (h, n) of the padded output to
  entry (n, h) of the result. So entry (n, h) of the result is

      (Σ_k W_l[k, h] · mean[n, k] + Σ_k W_r[k, h] · x[n, k]) + b[h],

  the transposed arrangement of the layer, which `MeanAggregate.transposed_eq` identifies with the layer. The
  96 padding columns never reach the result: the cut drops them.
-/
import proofs.«178518_j39032662786373_1_alg».proof.Proof.BlocksToArray
import proofs.«178518_j39032662786373_1_alg».proof.Proof.HostPrefix
import proofs.«178518_j39032662786373_1_alg».proof.Proof.HostTail

set_option maxRecDepth 16384

noncomputable section

open scoped BigOperators

namespace Cert.KernelIdeal.Result

open Cert.KernelIdeal Cert.KernelIdeal.Gen Cert.KernelIdeal.ArrayValue Cert.KernelIdeal.HostValue Cert.KernelIdeal.TailValue
open Cert.MeanAggregate
open Idealize.ShloMosaic Idealize.ShloMosaic.TcCoe Idealize.ShloMosaic.ValueIdx Idealize.SL.Sem

/-- `padded` at an entry given by its row and column. -/
theorem padded_apply (a0 : FVec Ideal S10x100096 .f32) (a1 : FVec Ideal S1x100096 .f32) (a2 : FVec Ideal S10x100096 .f32)
    (a3 : FVec Ideal S16x10 .f32) (a4 : FVec Ideal S16x1 .f32) (a5 : FVec Ideal S16x10 .f32) (h : Fin 16) (n' : Fin 100096) :
    padded a0 a1 a2 a3 a4 a5 (ix2 h n')
      = (∑ k : Fin 10, a3 (ix2 h k) * Ideal.div (a0 (ix2 k n')) (max (a1 (ix2 0 n')) unit)
          + ∑ k : Fin 10, a5 (ix2 h k) * a2 (ix2 k n')) + a4 (ix2 h 0) := rfl

variable (m : (ℓ : Loc nD τ sig) → Buf (Elt Ideal) ℓ) (ρ : Dev nD → PrngReg)

/-- THE RESULT BUFFER after the run is the layer of the program's arguments. -/
theorem result_eq (c : Dev nD) :
    (Pipeline.afterTail₀ cfgs (dats m) 0 (V0 m) [hostOps1] c main_v29 : S100000x16.Idx → Ideal .f32)
      = out (summed (m ((c : Thread nD τ).loc main_arg0)) (m ((c : Thread nD τ).loc main_arg1))) (counts (F := Ideal) (m ((c : Thread nD τ).loc main_arg1))) (m ((c : Thread nD τ).loc main_arg0)) (m ((c : Thread nD τ).loc main_arg2)) (m ((c : Thread nD τ).loc main_arg3)) (m ((c : Thread nD τ).loc main_arg4)) := by
  funext i
  have hi0 : (i 0).val < 100000 := (i 0).isLt
  rw [result_of_array m c, final m c,
    sliceT_apply _ ⟨(i 0).val, (i 0).isLt⟩ ⟨(i 1).val, (i 1).isLt⟩ i (ix2 ⟨(i 1).val, (i 1).isLt⟩ ⟨(i 0).val, by omega⟩) rfl rfl rfl rfl,
    padded_apply]
  refine Eq.trans ?_ (transposed_eq (summed (m ((c : Thread nD τ).loc main_arg0)) (m ((c : Thread nD τ).loc main_arg1))) (counts (F := Ideal) (m ((c : Thread nD τ).loc main_arg1))) (m ((c : Thread nD τ).loc main_arg0)) (m ((c : Thread nD τ).loc main_arg2)) (m ((c : Thread nD τ).loc main_arg3)) (m ((c : Thread nD τ).loc main_arg4))
    ⟨(i 0).val, (i 0).isLt⟩ ⟨(i 1).val, (i 1).isLt⟩)
  refine congrArg₂ (· + ·) (congrArg₂ (· + ·) (Finset.sum_congr rfl fun k _ => ?_) (Finset.sum_congr rfl fun k _ => ?_)) ?_
  · rw [wl_at m c ⟨(i 1).val, (i 1).isLt⟩ k _ rfl rfl, summed_at m c k ⟨(i 0).val, (i 0).isLt⟩ _ rfl rfl,
      counts_at m c ⟨(i 0).val, (i 0).isLt⟩ _ rfl rfl]
    rfl
  · rw [wr_at m c ⟨(i 1).val, (i 1).isLt⟩ k _ rfl rfl, feat_at m c k ⟨(i 0).val, (i 0).isLt⟩ _ rfl rfl]
  · exact bias_at m c ⟨(i 1).val, (i 1).isLt⟩ _ rfl

/-- THE KERNEL PROGRAM'S RUN: every weakly fair execution terminates with the result at the layer of the
    arguments and the arguments unchanged. -/
theorem run : θ_run defs (onTc (τ := τ) (main (F := Ideal))) ⟨m, fun _ => 0, ρ⟩ (fun r => ∀ c : Dev nD,
      r.2.mem ((c : Thread nD τ).loc main_v29)
        = out (summed (m ((c : Thread nD τ).loc main_arg0)) (m ((c : Thread nD τ).loc main_arg1))) (counts (F := Ideal) (m ((c : Thread nD τ).loc main_arg1))) (m ((c : Thread nD τ).loc main_arg0)) (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)) :=
  (θ_run defs _ _).mono (fun _ h c =>
    ⟨((h c).2 main_v29 (Pipeline.mem_restRefs_of main_v29 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.Result

end
-- ==== Proof.lean ====
/-
  A mean-aggregation graph layer, computed two ways, gives the same extended reals.

  Both programs first gather the source rows of the features `x` along the edges, add them up per destination
  node (the summed messages `s`) and count the edges per destination node (the in-degrees `cnt`), by the same
  gather and the same two scatter-adds of the same operands. From there the reference computes, for node n and
  output feature h,

      out[n, h] = (Σ_k mean[n, k] · W_l[k, h] + b[h]) + Σ_k x[n, k] · W_r[k, h],   mean[n, k] = s[n, k] / max (cnt[n], 1).

  The kernel program transposes everything so that nodes run along the columns, pads the columns from 100000 to
  100096 with zeros, lets a seventeen-step kernel compute, block of 5888 columns by block,

      (Σ_k W_l[k, h] · mean[n, k] + Σ_k W_r[k, h] · x[n, k]) + b[h]

  through two contractions whose operands pass through a narrower float format (the identity on the extended
  reals), then cuts the padding columns off and transposes back. The two expressions differ only in the order of
  the factors of each product and in where the bias is added; products commute and sums commute and associate on
  all of the extended reals, so the results agree entry by entry with no assumption on the inputs: the
  precondition is never opened. The padding columns never reach the result.

  The modules: `MeanAggregate` states the layer and the law between the two arrangements; `ReferenceValue` reads
  the reference's last operations as the layer; `BodyValue` reads one kernel step at an entry, `BlocksToArray`
  assembles the seventeen steps into the padded output array, `HostPrefix` and `HostTail` read the operations
  around the kernel at an index, `KernelResult` puts the kernel program's run together. Here: the summed
  messages and in-degrees of the two programs are the same functions of the arguments, and the five claims.
-/
import proofs.«178518_j39032662786373_1_alg».proof.Defs
import proofs.«178518_j39032662786373_1_alg».proof.Proof.Gen.Kernel
import proofs.«178518_j39032662786373_1_alg».proof.Proof.Gen.Kernel.Skeleton
import proofs.«178518_j39032662786373_1_alg».proof.Proof.Gen.Kernel.Launch
import proofs.«178518_j39032662786373_1_alg».proof.Proof.Gen.Kernel.Points
import proofs.«178518_j39032662786373_1_alg».proof.Proof.Gen.Kernel.Frame
import proofs.«178518_j39032662786373_1_alg».proof.Proof.Gen.KernelIdeal
import proofs.«178518_j39032662786373_1_alg».proof.Proof.Gen.KernelIdeal.Skeleton
import proofs.«178518_j39032662786373_1_alg».proof.Proof.Gen.KernelIdeal.Launch
import proofs.«178518_j39032662786373_1_alg».proof.Proof.Gen.KernelIdeal.Points
import proofs.«178518_j39032662786373_1_alg».proof.Proof.Gen.KernelIdeal.Frame
import proofs.«178518_j39032662786373_1_alg».proof.Proof.Gen.ReferenceIdeal
import proofs.«178518_j39032662786373_1_alg».proof.Proof.Gen.ReferenceIdeal.Run
import proofs.«178518_j39032662786373_1_alg».proof.Proof.Gen.ReferenceIdeal.Read
import proofs.«178518_j39032662786373_1_alg».proof.Proof.Gen.Pre_finite_inputs
import proofs.«178518_j39032662786373_1_alg».proof.Proof.ReferenceValue
import proofs.«178518_j39032662786373_1_alg».proof.Proof.KernelResult
import Idealize.ShloMosaic.Adequacy
import Idealize.ShloMosaic.Init

noncomputable section

namespace Cert.Proof

open Idealize.ShloMosaic Idealize.ShloMosaic.TcCoe Idealize.SL.Sem

/-! ## The shared beginning -/

/-- The kernel program's summed messages are the reference's: the same scatter-add, into zeros, at the edges'
    destinations, of the same gather of the features at the edges' sources. -/
theorem summed_eq (x0 : FVec Ideal Cert.KernelIdeal.S100000x10 .f32) (x1 : IVec Cert.KernelIdeal.S2x6400000 32) :
    Cert.KernelIdeal.HostValue.summed (F := Ideal) x0 x1 = Cert.ReferenceIdeal.Read.val_main_v13 (F := Ideal) x0 x1 := rfl

/-- The kernel program's in-degrees are the reference's: the same scatter-add, into zeros, of a one per edge at
    the edges' destinations. -/
theorem counts_eq (x1 : IVec Cert.KernelIdeal.S2x6400000 32) :
    Cert.KernelIdeal.HostValue.counts (F := Ideal) x1 = Cert.ReferenceIdeal.Read.val_main_v17 (F := Ideal) x1 := rfl

/-! ## The claims -/

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the arguments, the kernel program ends at the layer of its arguments
    (`KernelResult`) and the reference at the layer of its own (`ReferenceValue`), whose summed messages and
    in-degrees are the kernel program's (`summed_eq`, `counts_eq`): one array. -/
theorem algebraic : Cert.algebraic_KernelIdeal_ReferenceIdeal := by
  intro m ρ m' ρ' _ hagree
  refine ⟨_, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v28_eq, Cert.ReferenceIdeal.RefValue.result_eq,
    (hagree c).1, (hagree c).2.1, (hagree c).2.2.1, (hagree c).2.2.2.1, (hagree c).2.2.2.2,
    ← summed_eq, ← counts_eq]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
